-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S65536x512 : Shape := ⟨2, ![65536, 512]⟩
abbrev S524288x512 : Shape := ⟨2, ![524288, 512]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S524288x512 : S_.BroadcastsInDim S524288x512 (![] : Fin 0 → Fin S524288x512.rank)
  reducesTo_S524288x512_S_d0_1 : S524288x512.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S512x256 .f32) (main_arg5 : FVec F S256x128 .f32) (main_arg6 : FVec F S256x128 .f32) (main_arg7 : FVec F S128x64 .f32) (main_arg8 : FVec F S64 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S65536x512 .f32) (main_arg2 : FVec F S524288x512 .f32) (main_arg3 : FVec F S512x256 .f32) (main_arg4 : FVec F S512x256 .f32) (main_arg5 : FVec F S256x128 .f32) (main_arg6 : FVec F S256x128 .f32) (main_arg7 : FVec F S128x64 .f32) (main_arg8 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S524288x512 .f32 := Host.absf main_arg2
  let main_cst_2 : FVec F S_ .f32 := constant S_ .f32 0x7F800000#32
  let main_v10 : FVec F S524288x512 .f32 := broadcastInDim S524288x512 ![] bcast_S_S524288x512 main_cst_2
  let main_v11 : IVec S524288x512 1 := cmpf .olt main_v9 main_v10
  let main_c_3 : IVec S_ 1 := constantI S_ 1 1#1
  let main_v12 : IVec S_ 1 := (fun x v => Host.reduce IntOp.andi x v reducesTo_S524288x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S65536x512 : Shape := ⟨2, ![65536, 512]⟩
abbrev S524288x512 : Shape := ⟨2, ![524288, 512]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S1x64 : Shape := ⟨2, ![1, 64]⟩
abbrev S8192x64 : Shape := ⟨2, ![8192, 64]⟩
abbrev S64x512 : Shape := ⟨2, ![64, 512]⟩
abbrev S512x512 : Shape := ⟨2, ![512, 512]⟩
abbrev S4096x512 : Shape := ⟨2, ![4096, 512]⟩
abbrev S64x64 : Shape := ⟨2, ![64, 64]⟩
abbrev S512x8x512 : Shape := ⟨3, ![512, 8, 512]⟩
abbrev S64x8x512 : Shape := ⟨3, ![64, 8, 512]⟩
abbrev S64x256 : Shape := ⟨2, ![64, 256]⟩
abbrev S64x8x256 : Shape := ⟨3, ![64, 8, 256]⟩
abbrev S64x128 : Shape := ⟨2, ![64, 128]⟩

abbrev nBuf : Space → Nat
  | .hbm => 16
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S65536x512, .f32⟩
  | .hbm, ⟨2, _⟩ => ⟨S524288x512, .f32⟩
  | .hbm, ⟨3, _⟩ => ⟨S512x256, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S128x64, .f32⟩
  | .hbm, ⟨8, _⟩ => ⟨S64, .f32⟩
  | .hbm, ⟨9, _⟩ => ⟨S512x256, .bf16⟩
  | .hbm, ⟨10, _⟩ => ⟨S512x256, .bf16⟩
  | .hbm, ⟨11, _⟩ => ⟨S256x128, .bf16⟩
  | .hbm, ⟨12, _⟩ => ⟨S256x128, .bf16⟩
  | .hbm, ⟨13, _⟩ => ⟨S128x64, .bf16⟩
  | .hbm, ⟨14, _⟩ => ⟨S1x64, .f32⟩
  | .hbm, ⟨15, _⟩ => ⟨S8192x64, .f32⟩
  | .local _ .vmem, ⟨0, _⟩ => ⟨S64x512, .f32⟩
  | .local _ .vmem, ⟨1, _⟩ => ⟨S64x512, .f32⟩
  | .local _ .vmem, ⟨2, _⟩ => ⟨S512x512, .f32⟩
  | .local _ .vmem, ⟨3, _⟩ => ⟨S512x512, .f32⟩
  | .local _ .vmem, ⟨4, _⟩ => ⟨S4096x512, .f32⟩
  | .local _ .vmem, ⟨5, _⟩ => ⟨S4096x512, .f32⟩
  | .local _ .vmem, ⟨6, _⟩ => ⟨S512x256, .bf16⟩
  | .local _ .vmem, ⟨7, _⟩ => ⟨S512x256, .bf16⟩
  | .local _ .vmem, ⟨8, _⟩ => ⟨S256x128, .bf16⟩
  | .local _ .vmem, ⟨9, _⟩ => ⟨S256x128, .bf16⟩
  | .local _ .vmem, ⟨10, _⟩ => ⟨S128x64, .bf16⟩
  | .local _ .vmem, ⟨11, _⟩ => ⟨S1x64, .f32⟩
  | .local _ .vmem, ⟨12, _⟩ => ⟨S64x64, .f32⟩
  | .local _ .vmem, ⟨13, _⟩ => ⟨S64x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S64_S1x64 : S64.ShapeCasts S1x64
  inb_S64x512_S64x512_0_0 : ∀ a, (![0, 0] : Fin 2 → Nat) a + S64x512.size a ≤ S64x512.size a
  h_S64x512 : 0 < S64x512.numel
  inb_S512x512_S512x512_0_0 : ∀ a, (![0, 0] : Fin 2 → Nat) a + S512x512.size a ≤ S512x512.size a
  h_S512x512 : 0 < S512x512.numel
  inb_S4096x512_S4096x512_0_0 : ∀ a, (![0, 0] : Fin 2 → Nat) a + S4096x512.size a ≤ S4096x512.size a
  h_S4096x512 : 0 < S4096x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S4096x512_S512x8x512 : S4096x512.ShapeCasts S512x8x512
  reduces_S512x8x512_S512x512 : S512x8x512.Reduces [1] S512x512
  shapeCasts_S512x512_S64x8x512 : S512x512.ShapeCasts S64x8x512
  reduces_S64x8x512_S64x512 : S64x8x512.Reduces [1] S64x512
  shapeCasts_S512x256_S64x8x256 : S512x256.ShapeCasts S64x8x256
  reduces_S64x8x256_S64x256 : S64x8x256.Reduces [1] S64x256
  broadcasts_S1x64_S64x64 : S1x64.Broadcasts S64x64
  inb_S64x64_S64x64_0_0 : ∀ a, (![0, 0] : Fin 2 → Nat) a + S64x64.size a ≤ S64x64.size a
  h_S64x64 : 0 < S64x64.numel
  dot_S512x512_S512x256_S512x256_1_0_0_1_n_n_wf : DotDims.WF S512x512 S512x256 S512x256 [1] [0] [0] [1] [] []
  dot_S64x512_S512x256_S64x256_1_0_0_1_n_n_wf : DotDims.WF S64x512 S512x256 S64x256 [1] [0] [0] [1] [] []
  dot_S64x256_S256x128_S64x128_1_0_0_1_n_n_wf : DotDims.WF S64x256 S256x128 S64x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S8192x512.size a
  hwx0_0 : ∀ i : grid0.Coords, EltTy.bits .f32 = 32 ∨ (Rect.block (s := S8192x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S65536x512.size a
  hwx0_1 : ∀ i : grid0.Coords, EltTy.bits .f32 = 32 ∨ (Rect.block (s := S65536x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S524288x512.size a
  hwx0_2 : ∀ i : grid0.Coords, EltTy.bits .f32 = 32 ∨ (Rect.block (s := S524288x512) S4096x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S8192x64.size a
  hwx0_9 : ∀ i : grid0.Coords, EltTy.bits .f32 = 32 ∨ (Rect.block (s := S8192x64) S64x64.size (cc0_transform_9 i) (hinb0_9 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S64x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x512 : Shape := ⟨2, ![8192, 512]⟩
abbrev S65536x512 : Shape := ⟨2, ![65536, 512]⟩
abbrev S524288x512 : Shape := ⟨2, ![524288, 512]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S8192x8x512 : Shape := ⟨3, ![8192, 8, 512]⟩
abbrev S_ : Shape := ⟨0, ![]⟩
abbrev S8192x256 : Shape := ⟨2, ![8192, 256]⟩
abbrev S65536x8x512 : Shape := ⟨3, ![65536, 8, 512]⟩
abbrev S65536x256 : Shape := ⟨2, ![65536, 256]⟩
abbrev S8192x8x256 : Shape := ⟨3, ![8192, 8, 256]⟩
abbrev S8192x128 : Shape := ⟨2, ![8192, 128]⟩
abbrev S8192x64 : Shape := ⟨2, ![8192, 64]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S65536x512, .f32⟩
  | .hbm, ⟨2, _⟩ => ⟨S524288x512, .f32⟩
  | .hbm, ⟨3, _⟩ => ⟨S512x256, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S128x64, .f32⟩
  | .hbm, ⟨8, _⟩ => ⟨S64, .f32⟩
  | .hbm, ⟨9, _⟩ => ⟨S8192x8x512, .f32⟩
  | .hbm, ⟨10, _⟩ => ⟨S_, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S65536x8x512, .f32⟩
  | .hbm, ⟨22, _⟩ => ⟨S_, .f32⟩
  | .hbm, ⟨23, _⟩ => ⟨S65536x512, .f32⟩
  | .hbm, ⟨24, _⟩ => ⟨S_, .f32⟩
  | .hbm, ⟨25, _⟩ => ⟨S65536x512, .f32⟩
  | .hbm, ⟨26, _⟩ => ⟨S65536x512, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S8192x8x256, .f32⟩
  | .hbm, ⟨34, _⟩ => ⟨S_, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S8192x64, .f32⟩
  | .hbm, ⟨46, _⟩ => ⟨S1x64, .f32⟩
  | .hbm, ⟨47, _⟩ => ⟨S8192x64, .f32⟩
  | .hbm, ⟨48, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  shapeCasts_S65536x512_S8192x8x512 : S65536x512.ShapeCasts S8192x8x512
  reducesTo_S8192x8x512_S8192x512_d1 : S8192x8x512.ReducesTo [1] S8192x512
  h_S_ : 0 < S_.numel
  bcast_S_S8192x512 : S_.BroadcastsInDim S8192x512 (![] : Fin 0 → Fin S8192x512.rank)
  bcast_S_S8192x256 : S_.BroadcastsInDim S8192x256 (![] : Fin 0 → Fin S8192x256.rank)
  shapeCasts_S524288x512_S65536x8x512 : S524288x512.ShapeCasts S65536x8x512
  reducesTo_S65536x8x512_S65536x512_d1 : S65536x8x512.ReducesTo [1] S65536x512
  bcast_S_S65536x512 : S_.BroadcastsInDim S65536x512 (![] : Fin 0 → Fin S65536x512.rank)
  bcast_S_S65536x256 : S_.BroadcastsInDim S65536x256 (![] : Fin 0 → Fin S65536x256.rank)
  shapeCasts_S65536x256_S8192x8x256 : S65536x256.ShapeCasts S8192x8x256
  reducesTo_S8192x8x256_S8192x256_d1 : S8192x8x256.ReducesTo [1] S8192x256
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x512_S512x256_S8192x256_1_0_0_1_n_n_wf : DotDims.WF S8192x512 S512x256 S8192x256 [1] [0] [0] [1] [] []
  dot_S65536x512_S512x256_S65536x256_1_0_0_1_n_n_wf : DotDims.WF S65536x512 S512x256 S65536x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.Spec.lean ====
/-
  The mathematics of the two programs, free of shapes: matrices are functions of two natural indices into the extended
  reals. A GraphSage layer takes the features `cur` of some nodes and the features `nb` of their neighbours, eight
  consecutive rows of `nb` per node, and returns `max (cur · w2 + mean8 nb · w1) 0`; the network is two layers at the
  first level (roots from their neighbours, neighbours from theirs), one layer over those two results, and a linear
  classifier with a bias. Every operation works row by row, and a node's neighbours are the rows `8·r … 8·r+7`, so the
  network commutes with a shift of the row index: rows `a + r` of the result are the network of rows `a + r` of the
  roots, `8·a + s` of the first hop and `64·a + u` of the second hop. That is why computing the result tile by tile
  gives the same array as computing it at once.
-/
import Idealize.ShloMosaic.Lib.ValueIdx

noncomputable section

open scoped BigOperators

namespace GraphSage

open Idealize.ShloMosaic

/-- A matrix with no bounds: rows and columns are natural numbers. -/
abbrev Mat := ℕ → ℕ → EReal

/-- The divisor of the neighbour mean, the float `8.0`. -/
def eight : EReal := Ideal.ofBits .f32 0x41000000#32
/-- The threshold of the rectifier, the float `0.0`. -/
def zero : EReal := Ideal.ofBits .f32 0x00000000#32

/-- The mean over each node's eight neighbours: row `r` is the sum of rows `8·r … 8·r+7` divided by eight. -/
def mean8 (x : Mat) : Mat := fun r c => Ideal.div (∑ q : Fin 8, x (r * 8 + q.val) c) eight

/-- The product of the first `K` columns of `x` with the first `K` rows of `w`. -/
def mm (K : ℕ) (x w : Mat) : Mat := fun r j => ∑ k : Fin K, x r k.val * w k.val j

/-- One GraphSage layer with sum aggregation and a rectifier. -/
def layer (K : ℕ) (cur nb w1 w2 : Mat) : Mat := fun r j => max (mm K cur w2 r j + mm K (mean8 nb) w1 r j) zero

/-- The whole network: logits of the roots `x0` from their neighbours `x1` and second neighbours `x2`. -/
def net (x0 x1 x2 w10 w20 w11 w21 cw : Mat) (cb : ℕ → EReal) : Mat := fun r j =>
  mm 128 (layer 256 (layer 512 x0 x1 w10 w20) (layer 512 x1 x2 w10 w20) w11 w21) cw r j + cb j

/-- A matrix read from row `a` on. -/
def shift (a : ℕ) (x : Mat) : Mat := fun r c => x (a + r) c

theorem mean8_shift (a : ℕ) (x : Mat) : mean8 (shift (a * 8) x) = shift a (mean8 x) := by
  funext r c
  unfold mean8 shift
  refine congrArg (Ideal.div · eight) (Finset.sum_congr rfl fun q _ => ?_)
  congr 1
  ring

theorem mm_shift (K a : ℕ) (x w : Mat) : mm K (shift a x) w = shift a (mm K x w) := rfl

theorem layer_shift (K a : ℕ) (cur nb w1 w2 : Mat) :
    layer K (shift a cur) (shift (a * 8) nb) w1 w2 = shift a (layer K cur nb w1 w2) := by
  funext r j
  unfold layer
  rw [mean8_shift, mm_shift, mm_shift]
  rfl

/-- The network of shifted inputs is the shifted network: tile `a` of the roots with its tiles of the two hops. -/
theorem net_shift (a : ℕ) (x0 x1 x2 w10 w20 w11 w21 cw : Mat) (cb : ℕ → EReal) :
    net (shift a x0) (shift (a * 8) x1) (shift (a * 8 * 8) x2) w10 w20 w11 w21 cw cb
      = shift a (net x0 x1 x2 w10 w20 w11 w21 cw cb) := by
  funext r j
  unfold net
  rw [layer_shift, layer_shift, layer_shift, mm_shift]
  rfl

/-! ## Arrays as unbounded matrices -/

open Idealize.ShloMosaic.ValueIdx

/-- The array `x` of extents `A × B` holds the matrix `f` on its index range. -/
def Rep {A B : ℕ} (x : (⟨2, ![A, B]⟩ : Shape).Idx → EReal) (f : Mat) : Prop :=
  ∀ (r : Fin A) (c : Fin B), x (ix2 r c) = f r.val c.val

/-- An array of extents `A × B` as an unbounded matrix, zero outside its range. -/
def nat2 {A B : ℕ} (x : (⟨2, ![A, B]⟩ : Shape).Idx → EReal) : Mat :=
  fun r c => if h : r < A ∧ c < B then x (ix2 ⟨r, h.1⟩ ⟨c, h.2⟩) else 0

/-- A vector of extent `B` as an unbounded one, zero outside its range. -/
def nat1 {B : ℕ} (x : (⟨1, ![B]⟩ : Shape).Idx → EReal) : ℕ → EReal :=
  fun c => if h : c < B then x (ix1 ⟨c, h⟩) else 0

theorem nat2_rep {A B : ℕ} (x : (⟨2, ![A, B]⟩ : Shape).Idx → EReal) : Rep x (nat2 x) := by
  intro r c
  unfold nat2
  rw [dif_pos ⟨r.isLt, c.isLt⟩]

theorem nat1_apply {B : ℕ} (x : (⟨1, ![B]⟩ : Shape).Idx → EReal) (c : Fin B) : nat1 x c.val = x (ix1 c) := by
  unfold nat1
  rw [dif_pos c.isLt]

theorem nat2_apply {A B : ℕ} (x : (⟨2, ![A, B]⟩ : Shape).Idx → EReal) (r : Fin A) (c : Fin B) :
    nat2 x r.val c.val = x (ix2 r c) := (nat2_rep x r c).symm

end GraphSage

end
-- ==== Proof.KernelBody.lean ====
import proofs.«110212_j69140383531488_1_alg».proof.Proof.Gen.KernelIdeal.Frame
import proofs.«110212_j69140383531488_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx GraphSage

/-!
  The kernel body on one tile of 64 roots. The body loads its nine blocks whole and stores its one result whole, so
  the stored block is a composition of pure operations on the loaded ones. Each operation is read through `Rep`: an
  array holds an unbounded matrix on its index range. The mean over eight rows (a recast to `n × 8 × d`, a sum along
  the middle axis, a division by eight) holds `mean8`; a product into the zero accumulator holds `mm`; the sum of two
  products cut off below at zero holds `layer`; narrowing to the shorter float format is the identity over the extended
  reals. Composed in the order of the body they give `net` at every row and column of the tile.
-/

/-- The mean over groups of eight consecutive rows, as the kernel computes it: the array is read as
    `n × 8 × d`, summed along the middle axis and divided by the float eight. On an array holding `f`
    this is `mean8 f`: entry `(r, q, c)` of the recast array is entry `(8·r + q, c)` of the original,
    both having the row-major position `(8·r + q)·d + c`. -/
theorem mean_rep {N n d : ℕ} (hN : N = n * 8) (x : FVec Ideal ⟨2, ![N, d]⟩ .f32) (f : Mat)
    (hx : Rep (A := N) (B := d) x f)
    (hc : Shape.ShapeCasts ⟨2, ![N, d]⟩ ⟨3, ![n, 8, d]⟩)
    (hr : Shape.Reduces ⟨3, ![n, 8, d]⟩ [1] ⟨2, ![n, d]⟩)
    (hφ : FKind.Formats .f32) (hacc : (0x00000000#32 : BitVec 32) = FKind.add.neutral .f32 hφ) :
    Rep (A := n) (B := d)
      (divf (multiReduction (F := Ideal) .add [1] ⟨2, ![n, d]⟩ (shapeCast ⟨3, ![n, 8, d]⟩ x hc) 0x00000000#32 hr hφ hacc)
        (broadcast ⟨2, ![n, d]⟩ (Scalar.ofBits (F := Ideal) .f32 0x41000000#32)))
      (mean8 f) := by
  intro r c
  show Ideal.div (multiReduction (F := Ideal) .add [1] ⟨2, ![n, d]⟩ (shapeCast ⟨3, ![n, 8, d]⟩ x hc) 0x00000000#32 hr hφ hacc (ix2 r c))
      (Ideal.ofBits .f32 0x41000000#32) = _
  rw [Ideal.multiReduction_add_single]
  unfold mean8 eight
  refine congrArg (Ideal.div · _) ?_
  refine Finset.sum_congr rfl fun k _ => ?_
  have hk8 : k.val < 8 := k.isLt
  have hrow : r.val * 8 + k.val < N := by have := r.isLt; omega
  refine (shapeCast_apply x hc _ (ix2 ⟨r.val * 8 + k.val, hrow⟩ c) ?_).trans (hx _ _)
  rw [Shape.rowMajor_val_two, Shape.rowMajor_val_three]
  rfl

/-- A matrix product into the zero accumulator: on arrays holding `fa` (`M × K`) and `fb` (`K × N`) it holds
    `mm K fa fb`. The four facts say where the product reads its operands at output index `i` and contraction index
    `q`: the left operand at `(i 0, q)`, the right one at `(q, i 1)`. -/
theorem matmul_rep {M K N : ℕ} (D : DotDims ⟨2, ![M, K]⟩ ⟨2, ![K, N]⟩ ⟨2, ![M, N]⟩)
    (hrk : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ .bf16) (b : FVec Ideal ⟨2, ![K, N]⟩ .bf16) (fa fb : Mat)
    (ha : Rep (A := M) (B := K) a fa) (hb : Rep (A := K) (B := N) b fb) :
    Rep (A := M) (B := N) (matmul (F := Ideal) D none a b (constant ⟨2, ![M, N]⟩ .f32 0x00000000#32)) (mm K fa fb) := by
  intro r c
  show FloatOps.matmul D none a b (constant ⟨2, ![M, N]⟩ .f32 0x00000000#32) (ix2 r c) = _
  rw [Ideal.matmul_constant_zero_apply, ← Equiv.sum_comp (ValueIdx.contrEquiv1 D K hrk hs).symm]
  unfold mm
  refine Finset.sum_congr rfl fun k _ => ?_
  have hk := ValueIdx.contrEquiv1_symm_val D K hrk hs k
  have el : D.lhsIdx (ix2 r c) ((ValueIdx.contrEquiv1 D K hrk hs).symm k) = ix2 r k := funext fun a => Fin.ext (by
    match a with
    | ⟨0, _⟩ => exact hl0 _ _
    | ⟨1, _⟩ => exact (hl1 _ _).trans hk)
  have er : D.rhsIdx (ix2 r c) ((ValueIdx.contrEquiv1 D K hrk hs).symm k) = ix2 k c := funext fun a => Fin.ext (by
    match a with
    | ⟨0, _⟩ => exact (hr0 _ _).trans hk
    | ⟨1, _⟩ => exact hr1 _ _)
  rw [el, er, ha r k, hb k c]

/-! ## The four products of the kernel

For each of the four product records, where the product reads its operands: the left one at row `i 0` and
column `q`, the right one at row `q` and column `i 1`. -/

theorem lhs_512x512x256_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_512x512x256_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_512x512x256_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_512x512x256_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The `512 × 512` by `512 × 256` product of the kernel holds `mm 512` of what its operands hold. -/
theorem mm_512x512x256_rep (a : FVec Ideal S512x512 .bf16) (b : FVec Ideal S512x256 .bf16) (fa fb : Mat)
    (ha : Rep (A := 512) (B := 512) a fa) (hb : Rep (A := 512) (B := 256) b fb) :
    Rep (A := 512) (B := 256) (matmul (F := Ideal) dot_S512x512_S512x256_S512x256_1_0_0_1_n_n none a b (constant S512x256 .f32 0x00000000#32)) (mm 512 fa fb) :=
  matmul_rep dot_S512x512_S512x256_S512x256_1_0_0_1_n_n rfl rfl lhs_512x512x256_0 lhs_512x512x256_1 rhs_512x512x256_0 rhs_512x512x256_1 a b fa fb ha hb

theorem lhs_64x512x256_0 (i : S64x256.Idx) (q : dot_S64x512_S512x256_S64x256_1_0_0_1_n_n.contr.Idx) :
    (dot_S64x512_S512x256_S64x256_1_0_0_1_n_n.lhsIdx i q 0).val = (i 0).val := by
  unfold DotDims.lhsIdx
  rw [dif_neg (show ¬(0 : Fin S64x512.rank) ∈ dot_S64x512_S512x256_S64x256_1_0_0_1_n_n.lhsBatch by decide), dif_pos (show (0 : Fin S64x512.rank) ∈ dot_S64x512_S512x256_S64x256_1_0_0_1_n_n.lhsNonContracting by decide)]
  rfl
theorem lhs_64x512x256_1 (i : S64x256.Idx) (q : dot_S64x512_S512x256_S64x256_1_0_0_1_n_n.contr.Idx) :
    (dot_S64x512_S512x256_S64x256_1_0_0_1_n_n.lhsIdx i q 1).val = (q ⟨0, by decide⟩).val :=
  dot_S64x512_S512x256_S64x256_1_0_0_1_n_n.lhsIdx_val_of_single rfl i q
theorem rhs_64x512x256_0 (i : S64x256.Idx) (q : dot_S64x512_S512x256_S64x256_1_0_0_1_n_n.contr.Idx) :
    (dot_S64x512_S512x256_S64x256_1_0_0_1_n_n.rhsIdx i q 0).val = (q ⟨0, by decide⟩).val :=
  dot_S64x512_S512x256_S64x256_1_0_0_1_n_n.rhsIdx_val_of_single rfl i q
theorem rhs_64x512x256_1 (i : S64x256.Idx) (q : dot_S64x512_S512x256_S64x256_1_0_0_1_n_n.contr.Idx) :
    (dot_S64x512_S512x256_S64x256_1_0_0_1_n_n.rhsIdx i q 1).val = (i 1).val := by
  unfold DotDims.rhsIdx
  rw [dif_neg (show ¬(1 : Fin S512x256.rank) ∈ dot_S64x512_S512x256_S64x256_1_0_0_1_n_n.rhsBatch by decide), dif_pos (show (1 : Fin S512x256.rank) ∈ dot_S64x512_S512x256_S64x256_1_0_0_1_n_n.rhsNonContracting by decide)]
  rfl

/-- The `64 × 512` by `512 × 256` product of the kernel holds `mm 512` of what its operands hold. -/
theorem mm_64x512x256_rep (a : FVec Ideal S64x512 .bf16) (b : FVec Ideal S512x256 .bf16) (fa fb : Mat)
    (ha : Rep (A := 64) (B := 512) a fa) (hb : Rep (A := 512) (B := 256) b fb) :
    Rep (A := 64) (B := 256) (matmul (F := Ideal) dot_S64x512_S512x256_S64x256_1_0_0_1_n_n none a b (constant S64x256 .f32 0x00000000#32)) (mm 512 fa fb) :=
  matmul_rep dot_S64x512_S512x256_S64x256_1_0_0_1_n_n rfl rfl lhs_64x512x256_0 lhs_64x512x256_1 rhs_64x512x256_0 rhs_64x512x256_1 a b fa fb ha hb

theorem lhs_64x256x128_0 (i : S64x128.Idx) (q : dot_S64x256_S256x128_S64x128_1_0_0_1_n_n.contr.Idx) :
    (dot_S64x256_S256x128_S64x128_1_0_0_1_n_n.lhsIdx i q 0).val = (i 0).val := by
  unfold DotDims.lhsIdx
  rw [dif_neg (show ¬(0 : Fin S64x256.rank) ∈ dot_S64x256_S256x128_S64x128_1_0_0_1_n_n.lhsBatch by decide), dif_pos (show (0 : Fin S64x256.rank) ∈ dot_S64x256_S256x128_S64x128_1_0_0_1_n_n.lhsNonContracting by decide)]
  rfl
theorem lhs_64x256x128_1 (i : S64x128.Idx) (q : dot_S64x256_S256x128_S64x128_1_0_0_1_n_n.contr.Idx) :
    (dot_S64x256_S256x128_S64x128_1_0_0_1_n_n.lhsIdx i q 1).val = (q ⟨0, by decide⟩).val :=
  dot_S64x256_S256x128_S64x128_1_0_0_1_n_n.lhsIdx_val_of_single rfl i q
theorem rhs_64x256x128_0 (i : S64x128.Idx) (q : dot_S64x256_S256x128_S64x128_1_0_0_1_n_n.contr.Idx) :
    (dot_S64x256_S256x128_S64x128_1_0_0_1_n_n.rhsIdx i q 0).val = (q ⟨0, by decide⟩).val :=
  dot_S64x256_S256x128_S64x128_1_0_0_1_n_n.rhsIdx_val_of_single rfl i q
theorem rhs_64x256x128_1 (i : S64x128.Idx) (q : dot_S64x256_S256x128_S64x128_1_0_0_1_n_n.contr.Idx) :
    (dot_S64x256_S256x128_S64x128_1_0_0_1_n_n.rhsIdx i q 1).val = (i 1).val := by
  unfold DotDims.rhsIdx
  rw [dif_neg (show ¬(1 : Fin S256x128.rank) ∈ dot_S64x256_S256x128_S64x128_1_0_0_1_n_n.rhsBatch by decide), dif_pos (show (1 : Fin S256x128.rank) ∈ dot_S64x256_S256x128_S64x128_1_0_0_1_n_n.rhsNonContracting by decide)]
  rfl

/-- The `64 × 256` by `256 × 128` product of the kernel holds `mm 256` of what its operands hold. -/
theorem mm_64x256x128_rep (a : FVec Ideal S64x256 .bf16) (b : FVec Ideal S256x128 .bf16) (fa fb : Mat)
    (ha : Rep (A := 64) (B := 256) a fa) (hb : Rep (A := 256) (B := 128) b fb) :
    Rep (A := 64) (B := 128) (matmul (F := Ideal) dot_S64x256_S256x128_S64x128_1_0_0_1_n_n none a b (constant S64x128 .f32 0x00000000#32)) (mm 256 fa fb) :=
  matmul_rep dot_S64x256_S256x128_S64x128_1_0_0_1_n_n rfl rfl lhs_64x256x128_0 lhs_64x256x128_1 rhs_64x256x128_0 rhs_64x256x128_1 a b fa fb ha hb

theorem lhs_64x128x64_0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
theorem lhs_64x128x64_1 (i : S64x64.Idx) (q : dot_S64x128_S128x64_S64x64_1_0_0_1_n_n.contr.Idx) :
    (dot_S64x128_S128x64_S64x64_1_0_0_1_n_n.lhsIdx i q 1).val = (q ⟨0, by decide⟩).val :=
  dot_S64x128_S128x64_S64x64_1_0_0_1_n_n.lhsIdx_val_of_single rfl i q
theorem rhs_64x128x64_0 (i : S64x64.Idx) (q : dot_S64x128_S128x64_S64x64_1_0_0_1_n_n.contr.Idx) :
    (dot_S64x128_S128x64_S64x64_1_0_0_1_n_n.rhsIdx i q 0).val = (q ⟨0, by decide⟩).val :=
  dot_S64x128_S128x64_S64x64_1_0_0_1_n_n.rhsIdx_val_of_single rfl i q
theorem rhs_64x128x64_1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

/-- The `64 × 128` by `128 × 64` product of the kernel holds `mm 128` of what its operands hold. -/
theorem mm_64x128x64_rep (a : FVec Ideal S64x128 .bf16) (b : FVec Ideal S128x64 .bf16) (fa fb : Mat)
    (ha : Rep (A := 64) (B := 128) a fa) (hb : Rep (A := 128) (B := 64) b fb) :
    Rep (A := 64) (B := 64) (matmul (F := Ideal) dot_S64x128_S128x64_S64x64_1_0_0_1_n_n none a b (constant S64x64 .f32 0x00000000#32)) (mm 128 fa fb) :=
  matmul_rep dot_S64x128_S128x64_S64x64_1_0_0_1_n_n rfl rfl lhs_64x128x64_0 lhs_64x128x64_1 rhs_64x128x64_0 rhs_64x128x64_1 a b fa fb ha hb

/-! ## The pointwise steps -/

/-- Narrowing to the shorter float format changes nothing over the extended reals. -/
theorem trunc_rep {A B : ℕ} (v : FVec Ideal ⟨2, ![A, B]⟩ .f32) (f : Mat) (hv : Rep (A := A) (B := B) v f)
    (hb : FTy.bits .bf16 < FTy.bits .f32) :
    Rep (A := A) (B := B) (truncf (F := Ideal) .bf16 v hb) f := fun r c => hv r c

/-- The sum of the two products of a layer, cut off below at the float zero, is the layer. -/
theorem layer_rep {A B : ℕ} (K : ℕ) (u v : FVec Ideal ⟨2, ![A, B]⟩ .f32) (cur nb w1 w2 : Mat)
    (hu : Rep (A := A) (B := B) u (mm K cur w2)) (hv : Rep (A := A) (B := B) v (mm K (mean8 nb) w1)) :
    Rep (A := A) (B := B)
      (maximumf (addf u v) (broadcast ⟨2, ![A, B]⟩ (Scalar.ofBits (F := Ideal) .f32 0x00000000#32)))
      (layer K cur nb w1 w2) := by
  intro r c
  show max (u (ix2 r c) + v (ix2 r c)) (Ideal.ofBits .f32 0x00000000#32) = _
  rw [hu r c, hv r c]
  rfl

/-! ## The payloads of the kernel body -/

/-- The first-hop layer: neighbours from their own neighbours. -/
theorem pay8_rep (x1 : Vec Ideal S512x512 .f32) (x2 : Vec Ideal S4096x512 .f32) (x3 x4 : Vec Ideal S512x256 .bf16)
    (f1 f2 g10 g20 : Mat) (h1 : Rep (A := 512) (B := 512) x1 f1) (h2 : Rep (A := 4096) (B := 512) x2 f2)
    (h3 : Rep (A := 512) (B := 256) x3 g10) (h4 : Rep (A := 512) (B := 256) x4 g20) :
    Rep (A := 512) (B := 256) (k0_pay8 (F := Ideal) x1 x2 x3 x4) (layer 512 f1 f2 g10 g20) := by
  unfold k0_pay8 k0_pay3 k0_pay2
  dsimp only
  simp only [shapeCast_self]
  refine layer_rep 512 _ _ f1 f2 g10 g20 ?_ ?_
  · exact mm_512x512x256_rep _ _ _ _ (trunc_rep _ _ h1 _) h4
  · exact mm_512x512x256_rep _ _ _ _ (trunc_rep _ _ (mean_rep (N := 4096) (n := 512) (d := 512) rfl x2 f2 h2 _ _ _ _) _) h3

/-- The mean of each root's eight neighbours. -/
theorem pay9_rep (x1 : Vec Ideal S512x512 .f32) (f1 : Mat) (h1 : Rep (A := 512) (B := 512) x1 f1) :
    Rep (A := 64) (B := 512) (k0_pay9 (F := Ideal) x1) (mean8 f1) := by
  unfold k0_pay9
  dsimp only
  exact trunc_rep _ _ (mean_rep (N := 512) (n := 64) (d := 512) rfl x1 f1 h1 _ _ _ _) _

/-- The roots' own features times their weights. -/
theorem pay10_rep (x0 : Vec Ideal S64x512 .f32) (x4 : Vec Ideal S512x256 .bf16) (f0 g20 : Mat)
    (h0 : Rep (A := 64) (B := 512) x0 f0) (h4 : Rep (A := 512) (B := 256) x4 g20) :
    Rep (A := 64) (B := 256) (k0_pay10 (F := Ideal) x0 x4) (mm 512 f0 g20) := by
  unfold k0_pay10 k0_pay3
  dsimp only
  simp only [shapeCast_self]
  exact mm_64x512x256_rep _ _ _ _ (trunc_rep _ _ h0 _) h4

/-- The rest of the body: the roots' first layer, the second layer over the two first-layer results, the classifier
    and its bias, read at row `p` and column `j`. -/
theorem pay1_apply (v4 : FVec Ideal S512x256 .bf16) (v8 v10 : FVec Ideal S256x128 .bf16) (v12 : FVec Ideal S128x64 .bf16)
    (v14 : FVec Ideal S1x64 .f32) (v25 : FVec Ideal S512x256 .f32) (v31 : FVec Ideal S64x512 .bf16)
    (v32 : FVec Ideal S64x256 .f32) (f0 f1 f2 g10 g20 g11 g21 gc : Mat) (gb : ℕ → EReal)
    (h4 : Rep (A := 512) (B := 256) v4 g10) (h8 : Rep (A := 256) (B := 128) v8 g11)
    (h10 : Rep (A := 256) (B := 128) v10 g21) (h12 : Rep (A := 128) (B := 64) v12 gc)
    (h14 : ∀ c : Fin 64, v14 (ix2 (0 : Fin 1) c) = gb c.val)
    (h25 : Rep (A := 512) (B := 256) v25 (layer 512 f1 f2 g10 g20)) (h31 : Rep (A := 64) (B := 512) v31 (mean8 f1))
    (h32 : Rep (A := 64) (B := 256) v32 (mm 512 f0 g20)) (p j : Fin 64) :
    k0_pay1 (F := Ideal) v4 v8 v10 v12 v14 v25 v31 v32 (ix2 p j)
      = net f0 f1 f2 g10 g20 g11 g21 gc gb p.val j.val := by
  unfold k0_pay1
  dsimp only
  have hv36 := layer_rep 512 _ _ f0 f1 g10 g20 h32 (mm_64x512x256_rep _ _ _ _ h31 h4)
  refine (congrArg₂ (· + ·)
    (mm_64x128x64_rep _ _ _ _ (trunc_rep _ _
      (layer_rep 256 _ _ _ _ g11 g21
        (mm_64x256x128_rep _ _ _ _ (trunc_rep _ _ hv36 _) h10)
        (mm_64x256x128_rep _ _ _ _ (trunc_rep _ _
          (mean_rep (N := 512) (n := 64) (d := 256) rfl v25 _ h25 _ _ _ _) _) h8)) _) h12 p j)
    ((broadcastTo_apply v14 _ (ix2 p j) (ix2 (0 : Fin 1) j) ?_).trans (h14 j))).trans ?_
  · intro a
    match a with
    | ⟨0, _⟩ => rfl
    | ⟨1, _⟩ => rfl
  · rfl

/-- The offsets of a whole-block access are zero on both axes. -/
theorem zero_offsets : (![0, 0] : Fin 2 → Nat) = fun _ => 0 := funext fun a => by fin_cases a <;> rfl

/-- The whole-block store and the whole-block loads read the blocks themselves: what the body leaves in the output
    block is the last payload of the loaded blocks. -/
theorem out0_9_eq (x0 : Vec Ideal S64x512 .f32) (x1 : Vec Ideal S512x512 .f32) (x2 : Vec Ideal S4096x512 .f32)
    (x3 x4 : Vec Ideal S512x256 .bf16) (x5 x6 : Vec Ideal S256x128 .bf16) (x7 : Vec Ideal S128x64 .bf16)
    (x8 : Vec Ideal S1x64 .f32) :
    out0_9 (F := Ideal) x0 x1 x2 x3 x4 x5 x6 x7 x8
      = k0_pay1 (k0_pay2 x3) (k0_pay4 x5) (k0_pay5 x6) (k0_pay6 x7) (k0_pay7 x8) (k0_pay8 x1 x2 x3 x4) (k0_pay9 x1)
          (k0_pay10 x0 x4) := by
  unfold Gen.out0_9
  rw [View.canon_unit_zero zero_offsets]
  simp only [View.ld_unit_zero (S := S512x256) zero_offsets, View.ld_unit_zero (S := S256x128) zero_offsets,
    View.ld_unit_zero (S := S128x64) zero_offsets, View.ld_unit_zero (S := S1x64) zero_offsets,
    View.ld_unit_zero (S := S512x512) zero_offsets, View.ld_unit_zero (S := S4096x512) zero_offsets,
    View.ld_unit_zero (S := S64x512) zero_offsets]

/-- What the kernel body stores for one tile of 64 roots, element by element: the network of the tile's three input
    blocks and the weights. -/
theorem out_tile (x0 : Vec Ideal S64x512 .f32) (x1 : Vec Ideal S512x512 .f32) (x2 : Vec Ideal S4096x512 .f32)
    (x3 x4 : Vec Ideal S512x256 .bf16) (x5 x6 : Vec Ideal S256x128 .bf16) (x7 : Vec Ideal S128x64 .bf16)
    (x8 : Vec Ideal S1x64 .f32) (f0 f1 f2 g10 g20 g11 g21 gc : Mat) (gb : ℕ → EReal)
    (h0 : Rep (A := 64) (B := 512) x0 f0) (h1 : Rep (A := 512) (B := 512) x1 f1) (h2 : Rep (A := 4096) (B := 512) x2 f2)
    (h3 : Rep (A := 512) (B := 256) x3 g10) (h4 : Rep (A := 512) (B := 256) x4 g20)
    (h5 : Rep (A := 256) (B := 128) x5 g11) (h6 : Rep (A := 256) (B := 128) x6 g21)
    (h7 : Rep (A := 128) (B := 64) x7 gc) (h8 : ∀ c : Fin 64, x8 (ix2 (0 : Fin 1) c) = gb c.val)
    (p : Fin 64) (j : Fin 64) :
    out0_9 (F := Ideal) x0 x1 x2 x3 x4 x5 x6 x7 x8 (ix2 p j) = net f0 f1 f2 g10 g20 g11 g21 gc gb p.val j.val := by
  rw [out0_9_eq]
  unfold k0_pay2 k0_pay4 k0_pay5 k0_pay6 k0_pay7
  dsimp only
  simp only [shapeCast_self]
  exact pay1_apply x3 x5 x6 x7 x8 _ _ _ f0 f1 f2 g10 g20 g11 g21 gc gb h3 h5 h6 h7 h8
    (pay8_rep x1 x2 x3 x4 f1 f2 g10 g20 h1 h2 h3 h4) (pay9_rep x1 f1 h1) (pay10_rep x0 x4 f0 g20 h0 h4) p j

end Cert.KernelIdeal.Body

end
-- ==== Proof.Tiles.lean ====
import proofs.«110212_j69140383531488_1_alg».proof.Proof.Gen.KernelIdeal.Value
import proofs.«110212_j69140383531488_1_alg».proof.Proof.KernelBody
import proofs.«110212_j69140383531488_1_alg».proof.Proof.Spec
import Idealize.ShloMosaic.Lib.ValueIdx
import Idealize.ShloMosaic.Lib.Pipeline.Value
import Idealize.ShloMosaic.Lib.StableHlo.Run

noncomputable section

namespace Cert.KernelIdeal.Tiles

open Cert.KernelIdeal Cert.KernelIdeal.Gen Idealize.ShloMosaic Idealize.ShloMosaic.TcCoe Idealize.SL.Sem
open Idealize.ShloMosaic.ValueIdx GraphSage
open Idealize.ShloMosaic.Pipeline (Dat)

variable (m : (ℓ : Loc nD τ sig) → Buf (Elt Ideal) ℓ) (ρ : Dev nD → PrngReg)

/-! ## The argument arrays, at their literal types -/

abbrev nf0 (c : Dev nD) : Vec Ideal S8192x512 .f32 := m ((c : Thread nD τ).loc main_arg0)
abbrev nf1 (c : Dev nD) : Vec Ideal S65536x512 .f32 := m ((c : Thread nD τ).loc main_arg1)
abbrev nf2 (c : Dev nD) : Vec Ideal S524288x512 .f32 := m ((c : Thread nD τ).loc main_arg2)
abbrev w10 (c : Dev nD) : Vec Ideal S512x256 .f32 := m ((c : Thread nD τ).loc main_arg3)
abbrev w20 (c : Dev nD) : Vec Ideal S512x256 .f32 := m ((c : Thread nD τ).loc main_arg4)
abbrev w11 (c : Dev nD) : Vec Ideal S256x128 .f32 := m ((c : Thread nD τ).loc main_arg5)
abbrev w21 (c : Dev nD) : Vec Ideal S256x128 .f32 := m ((c : Thread nD τ).loc main_arg6)
abbrev clsw (c : Dev nD) : Vec Ideal S128x64 .f32 := m ((c : Thread nD τ).loc main_arg7)
abbrev clsb (c : Dev nD) : Vec Ideal S64 .f32 := m ((c : Thread nD τ).loc main_arg8)

/-- The logits of all 8192 roots, as one function of the argument arrays. -/
def logits (c : Dev nD) : Vec Ideal S8192x64 .f32 := fun i =>
  net (nat2 (nf0 m c)) (nat2 (nf1 m c)) (nat2 (nf2 m c)) (nat2 (w10 m c)) (nat2 (w20 m c)) (nat2 (w11 m c)) (nat2 (w21 m c))
    (nat2 (clsw m c)) (nat1 (clsb m c)) (i 0).val (i 1).val

/-! ## Where each window's block sits -/

/-- Tile `t` takes block `t` of the roots, of the first hop, of the second hop and of the result along the rows, and the
    one whole block of every weight. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## The arrays the host wrote before the call -/

theorem v0_eq (c : Dev nD) : (V m c main_v0 : S512x256.Idx → EReal) = w10 m c := by
  dsimp only [Gen.V, Gen.hostOps0]; after_results; rfl
theorem v1_eq (c : Dev nD) : (V m c main_v1 : S512x256.Idx → EReal) = w20 m c := by
  dsimp only [Gen.V, Gen.hostOps0]; after_results; rfl
theorem v2_eq (c : Dev nD) : (V m c main_v2 : S256x128.Idx → EReal) = w11 m c := by
  dsimp only [Gen.V, Gen.hostOps0]; after_results; rfl
theorem v3_eq (c : Dev nD) : (V m c main_v3 : S256x128.Idx → EReal) = w21 m c := by
  dsimp only [Gen.V, Gen.hostOps0]; after_results; rfl
theorem v4_eq (c : Dev nD) : (V m c main_v4 : S128x64.Idx → EReal) = clsw m c := by
  dsimp only [Gen.V, Gen.hostOps0]; after_results; rfl
theorem v5_eq (c : Dev nD) : (V m c main_v5 : S1x64.Idx → EReal) = shapeCast S1x64 (clsb m c) shapeCasts_S64_S1x64 := by
  dsimp only [Gen.V, Gen.hostOps0]; after_results; rfl

/-! ## The blocks a tile reads -/

theorem blk0 (c : Dev nD) (t : Fin cfg0.N) :
    Rep (A := 64) (B := 512) (iblk m c 0 t) (shift (t.val * 64) (nat2 (nf0 m c))) := by
  intro r cc
  have ht : t.val < 128 := lt_of_lt_of_eq t.isLt N_0
  have hr : r.val < 64 := r.isLt
  have hc : cc.val < 512 := cc.isLt
  obtain ⟨e00, e01, e10, e11, e20, e21, -⟩ := idx_facts t
  show V m c main_arg0 (((cfg0.win 0).blk t).view.emb (ix2 r cc)) = nat2 (nf0 m c) (t.val * 64 + r.val) cc.val
  rw [V_main_arg0]
  have hi : ((cfg0.win 0).blk t).view.emb (ix2 r cc) = ix2 (⟨t.val * 64 + r.val, by omega⟩ : Fin 8192) (⟨cc.val, hc⟩ : Fin 512) := by
    funext a; apply Fin.ext
    match a with
    | ⟨0, _⟩ => show win0_0.index t (0 : Fin 2) * 64 + 1 * r.val = t.val * 64 + r.val; omega
    | ⟨1, _⟩ => show win0_0.index t (1 : Fin 2) * 512 + 1 * cc.val = cc.val; omega
  rw [hi]
  exact (nat2_apply (nf0 m c) _ _).symm

theorem blk1 (c : Dev nD) (t : Fin cfg0.N) :
    Rep (A := 512) (B := 512) (iblk m c 1 t) (shift (t.val * 64 * 8) (nat2 (nf1 m c))) := by
  intro r cc
  have ht : t.val < 128 := lt_of_lt_of_eq t.isLt N_0
  have hr : r.val < 512 := r.isLt
  have hc : cc.val < 512 := cc.isLt
  obtain ⟨e00, e01, e10, e11, e20, e21, -⟩ := idx_facts t
  show V m c main_arg1 (((cfg0.win 1).blk t).view.emb (ix2 r cc)) = nat2 (nf1 m c) (t.val * 64 * 8 + r.val) cc.val
  rw [V_main_arg1]
  have hi : ((cfg0.win 1).blk t).view.emb (ix2 r cc) = ix2 (⟨t.val * 64 * 8 + r.val, by omega⟩ : Fin 65536) (⟨cc.val, hc⟩ : Fin 512) := by
    funext a; apply Fin.ext
    match a with
    | ⟨0, _⟩ => show win0_1.index t (0 : Fin 2) * 512 + 1 * r.val = t.val * 64 * 8 + r.val; omega
    | ⟨1, _⟩ => show win0_1.index t (1 : Fin 2) * 512 + 1 * cc.val = cc.val; omega
  rw [hi]
  exact (nat2_apply (nf1 m c) _ _).symm

theorem blk2 (c : Dev nD) (t : Fin cfg0.N) :
    Rep (A := 4096) (B := 512) (iblk m c 2 t) (shift (t.val * 64 * 8 * 8) (nat2 (nf2 m c))) := by
  intro r cc
  have ht : t.val < 128 := lt_of_lt_of_eq t.isLt N_0
  have hr : r.val < 4096 := r.isLt
  have hc : cc.val < 512 := cc.isLt
  obtain ⟨e00, e01, e10, e11, e20, e21, -⟩ := idx_facts t
  show V m c main_arg2 (((cfg0.win 2).blk t).view.emb (ix2 r cc)) = nat2 (nf2 m c) (t.val * 64 * 8 * 8 + r.val) cc.val
  rw [V_main_arg2]
  have hi : ((cfg0.win 2).blk t).view.emb (ix2 r cc) = ix2 (⟨t.val * 64 * 8 * 8 + r.val, by omega⟩ : Fin 524288) (⟨cc.val, hc⟩ : Fin 512) := by
    funext a; apply Fin.ext
    match a with
    | ⟨0, _⟩ => show win0_2.index t (0 : Fin 2) * 4096 + 1 * r.val = t.val * 64 * 8 * 8 + r.val; omega
    | ⟨1, _⟩ => show win0_2.index t (1 : Fin 2) * 512 + 1 * cc.val = cc.val; omega
  rw [hi]
  exact (nat2_apply (nf2 m c) _ _).symm

theorem blk3 (c : Dev nD) (t : Fin cfg0.N) : Rep (A := 512) (B := 256) (iblk m c 3 t) (nat2 (w10 m c)) := by
  intro r cc
  have hr : r.val < 512 := r.isLt
  have hc : cc.val < 256 := cc.isLt
  obtain ⟨-, -, -, -, -, -, e30, e31, e40, e41, e50, e51, e60, e61, e70, e71, e80, e81, -⟩ := idx_facts t
  show V m c main_v0 (((cfg0.win 3).blk t).view.emb (ix2 r cc)) = nat2 (w10 m c) r.val cc.val
  have hi : ((cfg0.win 3).blk t).view.emb (ix2 r cc) = ix2 r cc := by
    funext a; apply Fin.ext
    match a with
    | ⟨0, _⟩ => show win0_3.index t (0 : Fin 2) * 512 + 1 * r.val = r.val; omega
    | ⟨1, _⟩ => show win0_3.index t (1 : Fin 2) * 256 + 1 * cc.val = cc.val; omega
  rw [hi, v0_eq]
  exact (nat2_apply (w10 m c) r cc).symm

theorem blk4 (c : Dev nD) (t : Fin cfg0.N) : Rep (A := 512) (B := 256) (iblk m c 4 t) (nat2 (w20 m c)) := by
  intro r cc
  have hr : r.val < 512 := r.isLt
  have hc : cc.val < 256 := cc.isLt
  obtain ⟨-, -, -, -, -, -, e30, e31, e40, e41, e50, e51, e60, e61, e70, e71, e80, e81, -⟩ := idx_facts t
  show V m c main_v1 (((cfg0.win 4).blk t).view.emb (ix2 r cc)) = nat2 (w20 m c) r.val cc.val
  have hi : ((cfg0.win 4).blk t).view.emb (ix2 r cc) = ix2 r cc := by
    funext a; apply Fin.ext
    match a with
    | ⟨0, _⟩ => show win0_4.index t (0 : Fin 2) * 512 + 1 * r.val = r.val; omega
    | ⟨1, _⟩ => show win0_4.index t (1 : Fin 2) * 256 + 1 * cc.val = cc.val; omega
  rw [hi, v1_eq]
  exact (nat2_apply (w20 m c) r cc).symm

theorem blk5 (c : Dev nD) (t : Fin cfg0.N) : Rep (A := 256) (B := 128) (iblk m c 5 t) (nat2 (w11 m c)) := by
  intro r cc
  have hr : r.val < 256 := r.isLt
  have hc : cc.val < 128 := cc.isLt
  obtain ⟨-, -, -, -, -, -, e30, e31, e40, e41, e50, e51, e60, e61, e70, e71, e80, e81, -⟩ := idx_facts t
  show V m c main_v2 (((cfg0.win 5).blk t).view.emb (ix2 r cc)) = nat2 (w11 m c) r.val cc.val
  have hi : ((cfg0.win 5).blk t).view.emb (ix2 r cc) = ix2 r cc := by
    funext a; apply Fin.ext
    match a with
    | ⟨0, _⟩ => show win0_5.index t (0 : Fin 2) * 256 + 1 * r.val = r.val; omega
    | ⟨1, _⟩ => show win0_5.index t (1 : Fin 2) * 128 + 1 * cc.val = cc.val; omega
  rw [hi, v2_eq]
  exact (nat2_apply (w11 m c) r cc).symm

theorem blk6 (c : Dev nD) (t : Fin cfg0.N) : Rep (A := 256) (B := 128) (iblk m c 6 t) (nat2 (w21 m c)) := by
  intro r cc
  have hr : r.val < 256 := r.isLt
  have hc : cc.val < 128 := cc.isLt
  obtain ⟨-, -, -, -, -, -, e30, e31, e40, e41, e50, e51, e60, e61, e70, e71, e80, e81, -⟩ := idx_facts t
  show V m c main_v3 (((cfg0.win 6).blk t).view.emb (ix2 r cc)) = nat2 (w21 m c) r.val cc.val
  have hi : ((cfg0.win 6).blk t).view.emb (ix2 r cc) = ix2 r cc := by
    funext a; apply Fin.ext
    match a with
    | ⟨0, _⟩ => show win0_6.index t (0 : Fin 2) * 256 + 1 * r.val = r.val; omega
    | ⟨1, _⟩ => show win0_6.index t (1 : Fin 2) * 128 + 1 * cc.val = cc.val; omega
  rw [hi, v3_eq]
  exact (nat2_apply (w21 m c) r cc).symm

theorem blk7 (c : Dev nD) (t : Fin cfg0.N) : Rep (A := 128) (B := 64) (iblk m c 7 t) (nat2 (clsw m c)) := by
  intro r cc
  have hr : r.val < 128 := r.isLt
  have hc : cc.val < 64 := cc.isLt
  obtain ⟨-, -, -, -, -, -, e30, e31, e40, e41, e50, e51, e60, e61, e70, e71, e80, e81, -⟩ := idx_facts t
  show V m c main_v4 (((cfg0.win 7).blk t).view.emb (ix2 r cc)) = nat2 (clsw m c) r.val cc.val
  have hi : ((cfg0.win 7).blk t).view.emb (ix2 r cc) = ix2 r cc := by
    funext a; apply Fin.ext
    match a with
    | ⟨0, _⟩ => show win0_7.index t (0 : Fin 2) * 128 + 1 * r.val = r.val; omega
    | ⟨1, _⟩ => show win0_7.index t (1 : Fin 2) * 64 + 1 * cc.val = cc.val; omega
  rw [hi, v4_eq]
  exact (nat2_apply (clsw m c) r cc).symm

/-- The bias row, reshaped by the host to one row of 64, reads the bias vector. -/
theorem blk8 (c : Dev nD) (t : Fin cfg0.N) (cc : Fin 64) : iblk m c 8 t (ix2 (0 : Fin 1) cc) = nat1 (clsb m c) cc.val := by
  have hc : cc.val < 64 := cc.isLt
  obtain ⟨-, -, -, -, -, -, -, -, -, -, -, -, -, -, -, -, e80, e81, -⟩ := idx_facts t
  show V m c main_v5 (((cfg0.win 8).blk t).view.emb (ix2 (0 : Fin 1) cc)) = nat1 (clsb m c) cc.val
  have hi : ((cfg0.win 8).blk t).view.emb (ix2 (0 : Fin 1) cc) = ix2 (0 : Fin 1) cc := by
    funext a; apply Fin.ext
    match a with
    | ⟨0, _⟩ => show win0_8.index t (0 : Fin 2) * 1 + 1 * 0 = 0; omega
    | ⟨1, _⟩ => show win0_8.index t (1 : Fin 2) * 64 + 1 * cc.val = cc.val; omega
  rw [hi, v5_eq, nat1_apply]
  exact shapeCast_apply (clsb m c) shapeCasts_S64_S1x64 (ix2 (0 : Fin 1) cc) (ix1 cc) (by
    rw [Shape.rowMajor_val_one, Shape.rowMajor_val_two]
    show cc.val = 0 * 64 + cc.val
    omega)

/-! ## What a tile writes back, and the array after the run -/

/-- Tile `t` writes back rows `64·t … 64·t+63` of the logits: the body's result on the tile's blocks is the network of
    the shifted inputs, which is the shifted network. -/
theorem flushed_eq (c : Dev nD) (t : Fin cfg0.N) :
    (dats m 0 c).flushed 9 t = ((cfg0.win 9).blk t).view.read (Elt Ideal) (logits m c) := by
  rw [Value.flushed9]
  funext j
  obtain ⟨p, q, rfl⟩ : ∃ (p : Fin 64) (q : Fin 64), j = ix2 p q := ⟨j 0, j 1, eq_ix2 j⟩
  show out0_9 (F := Ideal) (iblk m c 0 t) (iblk m c 1 t) (iblk m c 2 t) (iblk m c 3 t) (iblk m c 4 t) (iblk m c 5 t)
      (iblk m c 6 t) (iblk m c 7 t) (iblk m c 8 t) (ix2 p q) = logits m c (((cfg0.win 9).blk t).view.emb (ix2 p q))
  refine (Body.out_tile (iblk m c 0 t) (iblk m c 1 t) (iblk m c 2 t) (iblk m c 3 t) (iblk m c 4 t) (iblk m c 5 t)
      (iblk m c 6 t) (iblk m c 7 t) (iblk m c 8 t)
      (shift (t.val * 64) (nat2 (nf0 m c))) (shift (t.val * 64 * 8) (nat2 (nf1 m c))) (shift (t.val * 64 * 8 * 8) (nat2 (nf2 m c)))
      (nat2 (w10 m c)) (nat2 (w20 m c)) (nat2 (w11 m c)) (nat2 (w21 m c)) (nat2 (clsw m c)) (nat1 (clsb m c))
      (blk0 m c t) (blk1 m c t) (blk2 m c t) (blk3 m c t) (blk4 m c t) (blk5 m c t) (blk6 m c t) (blk7 m c t) (blk8 m c t) p q).trans ?_
  rw [net_shift]
  obtain ⟨-, -, -, -, -, -, -, -, -, -, -, -, -, -, -, -, -, -, e90, e91⟩ := idx_facts t
  have h0 : ((((cfg0.win 9).blk t).view.emb (ix2 p q)) 0).val = t.val * 64 + p.val := by
    show win0_9.index t (0 : Fin 2) * 64 + 1 * p.val = _
    omega
  have h1 : ((((cfg0.win 9).blk t).view.emb (ix2 p q)) 1).val = q.val := by
    show win0_9.index t (1 : Fin 2) * 64 + 1 * q.val = _
    omega
  unfold logits shift
  dsimp only
  rw [h0, h1]

/-- An index of the result is in tile `t`'s block iff each coordinate is in the block's range on its axis. -/
theorem mem_blk (t : Fin cfg0.N) (i : S8192x64.Idx) :
    i ∈ ((cfg0.win 9).blk t).view.set ↔ ∀ a : Fin 2, win0_9.index t a * S64x64.size a ≤ (i a).val ∧ (i a).val < win0_9.index t a * S64x64.size a + S64x64.size a := by
  show i ∈ ((View.whole main_v6).slice (win0_9.rect t)).set ↔ _
  rw [View.set_slice_whole, Rect.mem_set_unit]
  exact Iff.rfl

/-- Row `r` of the result lies in the block of tile `r / 64`: the tiles cover the array. -/
theorem cover (i : S8192x64.Idx) : ∃ t : Fin cfg0.N, (cfg0.win 9).flush t = true ∧ i ∈ ((cfg0.win 9).blk t).view.set := by
  have hi0 : (i 0).val < 8192 := (i 0).isLt
  have hi1 : (i 1).val < 64 := (i 1).isLt
  have hN : (i 0).val / 64 < cfg0.N := lt_of_lt_of_eq (by omega : (i 0).val / 64 < 128) N_0.symm
  refine ⟨⟨(i 0).val / 64, hN⟩, flush0_9 _, ?_⟩
  rw [mem_blk]
  obtain ⟨-, -, -, -, -, -, -, -, -, -, -, -, -, -, -, -, -, -, e90, e91⟩ := idx_facts ⟨(i 0).val / 64, hN⟩
  have e90' : win0_9.index ⟨(i 0).val / 64, hN⟩ (0 : Fin 2) = (i 0).val / 64 := e90
  intro a
  match a with
  | ⟨0, _⟩ =>
    show win0_9.index ⟨(i 0).val / 64, hN⟩ (0 : Fin 2) * 64 ≤ (i 0).val ∧ (i 0).val < win0_9.index ⟨(i 0).val / 64, hN⟩ (0 : Fin 2) * 64 + 64
    omega
  | ⟨1, _⟩ =>
    show win0_9.index ⟨(i 0).val / 64, hN⟩ (1 : Fin 2) * 64 ≤ (i 1).val ∧ (i 1).val < win0_9.index ⟨(i 0).val / 64, hN⟩ (1 : Fin 2) * 64 + 64
    omega

/-- After the run the result array holds the logits. -/
theorem final (c : Dev nD) : (dats m 0 c).arrAt 9 cfg0.N = logits m c :=
  (dats m 0 c).arrAt_eq_of_cover 9 (logits m c) (fun t _ => flushed_eq m c t) cover

/-- The kernel's run: every weakly fair execution ends with the result array at the logits and the arguments unchanged. -/
theorem run : θ_run defs (onTc (τ := τ) (main (F := Ideal))) ⟨m, fun _ => 0, ρ⟩ fun r => ∀ c : Dev nD,
      r.2.mem ((c : Thread nD τ).loc main_v6) = logits m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Tiles

end
-- ==== Proof.RefNet.lean ====
import proofs.«110212_j69140383531488_1_alg».proof.Proof.Gen.ReferenceIdeal.Read
import proofs.«110212_j69140383531488_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefNet

open Cert.ReferenceIdeal Cert.ReferenceIdeal.Read Idealize.ShloMosaic Idealize.ShloMosaic.ValueIdx GraphSage

/-! ## The neighbour mean of the first hop

The reference reshapes the `65536 × 512` array to `8192 × 8 × 512`, sums the middle axis from an initial zero and divides
by the splat of eight. Element `(r, k, c)` of the reshaped array is element `(8·r + k, c)` of the original one, since
`((8·r + k)·512 + c) / 512 = 8·r + k` and the remainder is `c`. -/

/-- Element `(r, k, c)` of the reshaped first hop is element `(8·r + k, c)` of the first hop. -/
theorem idx_v0 (r : Fin 8192) (c : Fin 512) (k : Fin 8) :
    idx_main_v0 (idx_main_v1 (ix2 r c) k)
      = ix2 (⟨r.val * 8 + k.val, by have := r.isLt; have := k.isLt; omega⟩ : Fin 65536) c := by
  funext a
  apply Fin.ext
  have hr := r.isLt
  have hc := c.isLt
  have hk := k.isLt
  match a with
  | ⟨0, _⟩ =>
    show ((r.val * 8 + k.val) * 512 + c.val) / 512 = r.val * 8 + k.val
    omega
  | ⟨1, _⟩ =>
    show ((r.val * 8 + k.val) * 512 + c.val) % 512 = c.val
    omega

/-- The reference's mean of the first hop is `mean8` of the matrix the first hop holds. -/
theorem rep_v3 (x1 : (⟨S65536x512, .f32⟩ : BufTy).Contents (Elt Ideal)) (f1 : Mat)
    (h1 : Rep (A := 65536) (B := 512) x1 f1) :
    Rep (A := 8192) (B := 512) (val_main_v3 (F := Ideal) x1) (mean8 f1) := by
  intro r c
  rw [val_main_v3_apply, val_main_v1_apply, val_main_v2_apply, val_main_cst_0_apply, val_main_cst_apply]
  simp only [Ideal.hostDivf_def, Ideal.ofBits_def, Ideal.ofBits_zero_f32, zero_add]
  unfold mean8 eight
  refine congrArg (Ideal.div · _) (Finset.sum_congr rfl fun k _ => ?_)
  rw [val_main_v0_apply, idx_v0]
  exact h1 _ _

/-! ## The first-level layer over the roots

`max (x0 · w2 + mean8 x1 · w1) 0`: two contractions over the 512 input features, their sum, and the rectifier. Element
`(r, j)` of a contraction reads its left operand at `(r, k)` and its right operand at `(k, j)`. -/

/-- The reference's first-level layer over the roots is `layer 512` of the matrices its arguments hold. -/
theorem rep_v7 (x0 : (⟨S8192x512, .f32⟩ : BufTy).Contents (Elt Ideal)) (x1 : (⟨S65536x512, .f32⟩ : BufTy).Contents (Elt Ideal))
    (x3 x4 : (⟨S512x256, .f32⟩ : BufTy).Contents (Elt Ideal)) (f0 f1 g10 g20 : Mat)
    (h0 : Rep (A := 8192) (B := 512) x0 f0) (h1 : Rep (A := 65536) (B := 512) x1 f1)
    (h3 : Rep (A := 512) (B := 256) x3 g10) (h4 : Rep (A := 512) (B := 256) x4 g20) :
    Rep (A := 8192) (B := 256) (val_main_v7 (F := Ideal) x0 x1 x3 x4) (layer 512 f0 f1 g10 g20) := by
  intro r j
  rw [val_main_v7_apply, val_main_v6_apply, val_main_v4_apply, val_main_v5_apply, val_main_call0_v0_apply,
    val_main_call0_cst_apply]
  simp only [Ideal.maximumf_def, Ideal.addf_def, Ideal.ofBits_def]
  unfold layer mm zero
  refine congrArg (max · _) (congrArg₂ (· + ·) (Finset.sum_congr rfl fun k _ => ?_) (Finset.sum_congr rfl fun k _ => ?_))
  · have el : lidx_main_v4 (ix2 r j) k = ix2 r k :=
      funext fun a => by match a with | ⟨0, _⟩ => rfl | ⟨1, _⟩ => rfl
    have er : ridx_main_v4 (ix2 r j) k = ix2 k j :=
      funext fun a => by match a with | ⟨0, _⟩ => rfl | ⟨1, _⟩ => rfl
    rw [el, er, h0 r k, h4 k j]
  · have el : lidx_main_v5 (ix2 r j) k = ix2 r k :=
      funext fun a => by match a with | ⟨0, _⟩ => rfl | ⟨1, _⟩ => rfl
    have er : ridx_main_v5 (ix2 r j) k = ix2 k j :=
      funext fun a => by match a with | ⟨0, _⟩ => rfl | ⟨1, _⟩ => rfl
    rw [el, er, rep_v3 x1 f1 h1 r k, h3 k j]

/-! ## The first-level layer over the first hop

The same layer one level down: the current nodes are the `65536` first-hop nodes and their neighbours the `524288`
second-hop nodes. -/

/-- Element `(r, k, c)` of the reshaped second hop is element `(8·r + k, c)` of the second hop. -/
theorem idx_v8 (r : Fin 65536) (c : Fin 512) (k : Fin 8) :
    idx_main_v8 (idx_main_v9 (ix2 r c) k)
      = ix2 (⟨r.val * 8 + k.val, by have := r.isLt; have := k.isLt; omega⟩ : Fin 524288) c := by
  funext a
  apply Fin.ext
  have hr := r.isLt
  have hc := c.isLt
  have hk := k.isLt
  match a with
  | ⟨0, _⟩ =>
    show ((r.val * 8 + k.val) * 512 + c.val) / 512 = r.val * 8 + k.val
    omega
  | ⟨1, _⟩ =>
    show ((r.val * 8 + k.val) * 512 + c.val) % 512 = c.val
    omega

/-- The reference's mean of the second hop is `mean8` of the matrix the second hop holds. -/
theorem rep_v11 (x2 : (⟨S524288x512, .f32⟩ : BufTy).Contents (Elt Ideal)) (f2 : Mat)
    (h2 : Rep (A := 524288) (B := 512) x2 f2) :
    Rep (A := 65536) (B := 512) (val_main_v11 (F := Ideal) x2) (mean8 f2) := by
  intro r c
  rw [val_main_v11_apply, val_main_v9_apply, val_main_v10_apply, val_main_cst_2_apply, val_main_cst_1_apply]
  simp only [Ideal.hostDivf_def, Ideal.ofBits_def, Ideal.ofBits_zero_f32, zero_add]
  unfold mean8 eight
  refine congrArg (Ideal.div · _) (Finset.sum_congr rfl fun k _ => ?_)
  rw [val_main_v8_apply, idx_v8]
  exact h2 _ _

/-- The reference's first-level layer over the first hop is `layer 512` of the matrices its arguments hold. -/
theorem rep_v15 (x1 : (⟨S65536x512, .f32⟩ : BufTy).Contents (Elt Ideal)) (x2 : (⟨S524288x512, .f32⟩ : BufTy).Contents (Elt Ideal))
    (x3 x4 : (⟨S512x256, .f32⟩ : BufTy).Contents (Elt Ideal)) (f1 f2 g10 g20 : Mat)
    (h1 : Rep (A := 65536) (B := 512) x1 f1) (h2 : Rep (A := 524288) (B := 512) x2 f2)
    (h3 : Rep (A := 512) (B := 256) x3 g10) (h4 : Rep (A := 512) (B := 256) x4 g20) :
    Rep (A := 65536) (B := 256) (val_main_v15 (F := Ideal) x1 x2 x3 x4) (layer 512 f1 f2 g10 g20) := by
  intro r j
  rw [val_main_v15_apply, val_main_v14_apply, val_main_v12_apply, val_main_v13_apply, val_main_call1_v0_apply,
    val_main_call1_cst_apply]
  simp only [Ideal.maximumf_def, Ideal.addf_def, Ideal.ofBits_def]
  unfold layer mm zero
  refine congrArg (max · _) (congrArg₂ (· + ·) (Finset.sum_congr rfl fun k _ => ?_) (Finset.sum_congr rfl fun k _ => ?_))
  · have el : lidx_main_v12 (ix2 r j) k = ix2 r k :=
      funext fun a => by match a with | ⟨0, _⟩ => rfl | ⟨1, _⟩ => rfl
    have er : ridx_main_v12 (ix2 r j) k = ix2 k j :=
      funext fun a => by match a with | ⟨0, _⟩ => rfl | ⟨1, _⟩ => rfl
    rw [el, er, h1 r k, h4 k j]
  · have el : lidx_main_v13 (ix2 r j) k = ix2 r k :=
      funext fun a => by match a with | ⟨0, _⟩ => rfl | ⟨1, _⟩ => rfl
    have er : ridx_main_v13 (ix2 r j) k = ix2 k j :=
      funext fun a => by match a with | ⟨0, _⟩ => rfl | ⟨1, _⟩ => rfl
    rw [el, er, rep_v11 x2 f2 h2 r k, h3 k j]

/-! ## The second-level layer

Its current nodes are the first-level result over the roots, its neighbours the first-level result over the first
hop, averaged eight rows at a time through the same reshape, sum and division, now with 256 features. -/

/-- Element `(r, k, c)` of the reshaped first-level result is its element `(8·r + k, c)`. -/
theorem idx_v16 (r : Fin 8192) (c : Fin 256) (k : Fin 8) :
    idx_main_v16 (idx_main_v17 (ix2 r c) k)
      = ix2 (⟨r.val * 8 + k.val, by have := r.isLt; have := k.isLt; omega⟩ : Fin 65536) c := by
  funext a
  apply Fin.ext
  have hr := r.isLt
  have hc := c.isLt
  have hk := k.isLt
  match a with
  | ⟨0, _⟩ =>
    show ((r.val * 8 + k.val) * 256 + c.val) / 256 = r.val * 8 + k.val
    omega
  | ⟨1, _⟩ =>
    show ((r.val * 8 + k.val) * 256 + c.val) % 256 = c.val
    omega

/-- The reference's mean of the first-level result over the first hop is `mean8` of that layer. -/
theorem rep_v19 (x1 : (⟨S65536x512, .f32⟩ : BufTy).Contents (Elt Ideal)) (x2 : (⟨S524288x512, .f32⟩ : BufTy).Contents (Elt Ideal))
    (x3 x4 : (⟨S512x256, .f32⟩ : BufTy).Contents (Elt Ideal)) (f1 f2 g10 g20 : Mat)
    (h1 : Rep (A := 65536) (B := 512) x1 f1) (h2 : Rep (A := 524288) (B := 512) x2 f2)
    (h3 : Rep (A := 512) (B := 256) x3 g10) (h4 : Rep (A := 512) (B := 256) x4 g20) :
    Rep (A := 8192) (B := 256) (val_main_v19 (F := Ideal) x1 x2 x3 x4) (mean8 (layer 512 f1 f2 g10 g20)) := by
  intro r c
  rw [val_main_v19_apply, val_main_v17_apply, val_main_v18_apply, val_main_cst_4_apply, val_main_cst_3_apply]
  simp only [Ideal.hostDivf_def, Ideal.ofBits_def, Ideal.ofBits_zero_f32, zero_add]
  unfold mean8 eight
  refine congrArg (Ideal.div · _) (Finset.sum_congr rfl fun k _ => ?_)
  rw [val_main_v16_apply, idx_v16]
  exact rep_v15 x1 x2 x3 x4 f1 f2 g10 g20 h1 h2 h3 h4 _ _

/-- The reference's second-level layer is `layer 256` of the two first-level layers. -/
theorem rep_v23 (x0 : (⟨S8192x512, .f32⟩ : BufTy).Contents (Elt Ideal)) (x1 : (⟨S65536x512, .f32⟩ : BufTy).Contents (Elt Ideal))
    (x2 : (⟨S524288x512, .f32⟩ : BufTy).Contents (Elt Ideal)) (x3 x4 : (⟨S512x256, .f32⟩ : BufTy).Contents (Elt Ideal))
    (x5 x6 : (⟨S256x128, .f32⟩ : BufTy).Contents (Elt Ideal)) (f0 f1 f2 g10 g20 g11 g21 : Mat)
    (h0 : Rep (A := 8192) (B := 512) x0 f0) (h1 : Rep (A := 65536) (B := 512) x1 f1) (h2 : Rep (A := 524288) (B := 512) x2 f2)
    (h3 : Rep (A := 512) (B := 256) x3 g10) (h4 : Rep (A := 512) (B := 256) x4 g20)
    (h5 : Rep (A := 256) (B := 128) x5 g11) (h6 : Rep (A := 256) (B := 128) x6 g21) :
    Rep (A := 8192) (B := 128) (val_main_v23 (F := Ideal) x0 x1 x2 x3 x4 x5 x6)
      (layer 256 (layer 512 f0 f1 g10 g20) (layer 512 f1 f2 g10 g20) g11 g21) := by
  intro r j
  rw [val_main_v23_apply, val_main_v22_apply, val_main_v20_apply, val_main_v21_apply, val_main_call2_v0_apply,
    val_main_call2_cst_apply]
  simp only [Ideal.maximumf_def, Ideal.addf_def, Ideal.ofBits_def]
  unfold layer mm zero
  refine congrArg (max · _) (congrArg₂ (· + ·) (Finset.sum_congr rfl fun k _ => ?_) (Finset.sum_congr rfl fun k _ => ?_))
  · have el : lidx_main_v20 (ix2 r j) k = ix2 r k :=
      funext fun a => by match a with | ⟨0, _⟩ => rfl | ⟨1, _⟩ => rfl
    have er : ridx_main_v20 (ix2 r j) k = ix2 k j :=
      funext fun a => by match a with | ⟨0, _⟩ => rfl | ⟨1, _⟩ => rfl
    rw [el, er, rep_v7 x0 x1 x3 x4 f0 f1 g10 g20 h0 h1 h3 h4 r k, h6 k j]
    rfl
  · have el : lidx_main_v21 (ix2 r j) k = ix2 r k :=
      funext fun a => by match a with | ⟨0, _⟩ => rfl | ⟨1, _⟩ => rfl
    have er : ridx_main_v21 (ix2 r j) k = ix2 k j :=
      funext fun a => by match a with | ⟨0, _⟩ => rfl | ⟨1, _⟩ => rfl
    rw [el, er, rep_v19 x1 x2 x3 x4 f1 f2 g10 g20 h1 h2 h3 h4 r k, h5 k j]
    rfl

/-! ## The classifier

A contraction of the second-level layer with the classifier matrix over its 128 features, plus the bias, which the
reference broadcasts from `[64]` through `[1, 64]` to every row. -/

/-- The reference's result, element by element, is the network of its argument arrays. -/
theorem ref_net (x0 : (⟨S8192x512, .f32⟩ : BufTy).Contents (Elt Ideal)) (x1 : (⟨S65536x512, .f32⟩ : BufTy).Contents (Elt Ideal))
    (x2 : (⟨S524288x512, .f32⟩ : BufTy).Contents (Elt Ideal)) (x3 x4 : (⟨S512x256, .f32⟩ : BufTy).Contents (Elt Ideal))
    (x5 x6 : (⟨S256x128, .f32⟩ : BufTy).Contents (Elt Ideal)) (x7 : (⟨S128x64, .f32⟩ : BufTy).Contents (Elt Ideal))
    (x8 : (⟨S64, .f32⟩ : BufTy).Contents (Elt Ideal)) (f0 f1 f2 g10 g20 g11 g21 gc : Mat) (gb : ℕ → EReal)
    (h0 : Rep (A := 8192) (B := 512) x0 f0) (h1 : Rep (A := 65536) (B := 512) x1 f1) (h2 : Rep (A := 524288) (B := 512) x2 f2)
    (h3 : Rep (A := 512) (B := 256) x3 g10) (h4 : Rep (A := 512) (B := 256) x4 g20)
    (h5 : Rep (A := 256) (B := 128) x5 g11) (h6 : Rep (A := 256) (B := 128) x6 g21)
    (h7 : Rep (A := 128) (B := 64) x7 gc) (h8 : ∀ c : Fin 64, x8 (ix1 c) = gb c.val)
    (r : Fin 8192) (j : Fin 64) :
    val_main_v27 (F := Ideal) x0 x1 x2 x3 x4 x5 x6 x7 x8 (ix2 r j) = net f0 f1 f2 g10 g20 g11 g21 gc gb r.val j.val := by
  rw [val_main_v27_apply, val_main_v24_apply, val_main_v26_apply, val_main_v25_apply]
  simp only [Ideal.addf_def]
  unfold net mm
  refine congrArg₂ (· + ·) (Finset.sum_congr rfl fun k _ => ?_) ?_
  · have el : lidx_main_v24 (ix2 r j) k = ix2 r k :=
      funext fun a => by match a with | ⟨0, _⟩ => rfl | ⟨1, _⟩ => rfl
    have er : ridx_main_v24 (ix2 r j) k = ix2 k j :=
      funext fun a => by match a with | ⟨0, _⟩ => rfl | ⟨1, _⟩ => rfl
    rw [el, er, rep_v23 x0 x1 x2 x3 x4 x5 x6 f0 f1 f2 g10 g20 g11 g21 h0 h1 h2 h3 h4 h5 h6 r k, h7 k j]
  · have e : idx_main_v25 (idx_main_v26 (ix2 r j)) = ix1 j :=
      funext fun a => by match a with | ⟨0, _⟩ => rfl
    rw [e]
    exact h8 j

end Cert.ReferenceIdeal.RefNet

end
-- ==== Proof.lean ====
/-
  The certificate of the fused GraphSage forward pass against its jnp reference, over the extended reals.

  Both programs compute, for each of the 8192 root nodes, the logits of a two-level GraphSage network: a layer is
  `max (cur · w2 + mean8 nb · w1) 0`, where `mean8` averages the eight consecutive neighbour rows of a node; the first
  level applies one layer to (roots, first hop) and to (first hop, second hop), the second level one layer to those two
  results, and a linear classifier with a bias follows (Proof/Spec.lean). The reference does this on whole arrays. The
  kernel does it tile by tile: tile `t` reads rows `64·t…` of the roots, `512·t…` of the first hop and `4096·t…` of
  the second hop, runs the whole network on them (Proof/KernelBody.lean: matrix products into a zero accumulator are
  plain sums, a change of float format is the identity, and the mean is the same sum divided by the same `8.0`) and
  writes rows `64·t…` of the result. The network commutes with a shift of the row index because a node's neighbours are
  the rows `8·r … 8·r+7`, so each tile writes exactly its rows of the whole-array network, and the tiles cover the result
  (Proof/Tiles.lean). The reference's forty host operations read index by index give the same network of the same
  arrays (Proof/RefNet.lean). No law of the extended reals beyond `0 + x = x` is used, so the precondition is never opened.
  The three frames are the generated ones (the reference's is its generated run with the result dropped), and there is
  nothing to preserve: the idealized kernel differs from the kernel by no rewrite.
-/
import proofs.«110212_j69140383531488_1_alg».proof.Defs
import proofs.«110212_j69140383531488_1_alg».proof.Proof.Gen.Kernel
import proofs.«110212_j69140383531488_1_alg».proof.Proof.Gen.Kernel.Skeleton
import proofs.«110212_j69140383531488_1_alg».proof.Proof.Gen.Kernel.Launch
import proofs.«110212_j69140383531488_1_alg».proof.Proof.Gen.Kernel.Points
import proofs.«110212_j69140383531488_1_alg».proof.Proof.Gen.Kernel.Frame
import proofs.«110212_j69140383531488_1_alg».proof.Proof.Gen.KernelIdeal
import proofs.«110212_j69140383531488_1_alg».proof.Proof.Gen.KernelIdeal.Skeleton
import proofs.«110212_j69140383531488_1_alg».proof.Proof.Gen.KernelIdeal.Launch
import proofs.«110212_j69140383531488_1_alg».proof.Proof.Gen.KernelIdeal.Points
import proofs.«110212_j69140383531488_1_alg».proof.Proof.Gen.KernelIdeal.Frame
import proofs.«110212_j69140383531488_1_alg».proof.Proof.Gen.ReferenceIdeal
import proofs.«110212_j69140383531488_1_alg».proof.Proof.Gen.Pre_finite_inputs
import proofs.«110212_j69140383531488_1_alg».proof.Proof.Gen.KernelIdeal.Value
import proofs.«110212_j69140383531488_1_alg».proof.Proof.Gen.ReferenceIdeal.Run
import proofs.«110212_j69140383531488_1_alg».proof.Proof.Gen.ReferenceIdeal.Read
import proofs.«110212_j69140383531488_1_alg».proof.Proof.Spec
import proofs.«110212_j69140383531488_1_alg».proof.Proof.Tiles
import proofs.«110212_j69140383531488_1_alg».proof.Proof.RefNet
import Idealize.ShloMosaic.Adequacy
import Idealize.ShloMosaic.Init

noncomputable section

namespace Cert.Proof

open Idealize.ShloMosaic Idealize.SL.Sem Idealize.ShloMosaic.ValueIdx GraphSage

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the network of the (agreeing) argument arrays. -/
theorem algebraic : Cert.algebraic_KernelIdeal_ReferenceIdeal := by
  intro m ρ m' ρ' _ hagree
  refine ⟨fun c => Cert.KernelIdeal.Tiles.logits m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v27_eq, a0, a1, a2, a3, a4, a5, a6, a7, a8]
  funext i
  obtain ⟨r, j, rfl⟩ : ∃ (r : Fin 8192) (j : Fin 64), i = ix2 r j := ⟨i 0, i 1, eq_ix2 i⟩
  exact Cert.ReferenceIdeal.RefNet.ref_net _ _ _ _ _ _ _ _ _ _ _ _ _ _ _ _ _ _
    (nat2_rep _) (nat2_rep _) (nat2_rep _) (nat2_rep _) (nat2_rep _) (nat2_rep _) (nat2_rep _) (nat2_rep _)
    (fun cc => (nat1_apply _ cc).symm) r j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
